-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S50000x256 .f32) (main_arg1 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S50000x256 : Shape := ⟨2, ![50000, 256]⟩
abbrev S256x256 : Shape := ⟨2, ![256, 256]⟩
abbrev S14848x256 : Shape := ⟨2, ![14848, 256]⟩

abbrev nBuf : Space → Nat
  | .hbm => 3
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S50000x256, .f32⟩
  | .local _ .vmem, ⟨0, _⟩ => ⟨S14848x256, .f32⟩
  | .local _ .vmem, ⟨1, _⟩ => ⟨S14848x256, .f32⟩
  | .local _ .vmem, ⟨2, _⟩ => ⟨S256x256, .f32⟩
  | .local _ .vmem, ⟨3, _⟩ => ⟨S14848x256, .f32⟩
  | .local _ .vmem, ⟨4, _⟩ => ⟨S14848x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S14848x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S14848x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S14848x256_S14848x256_0_0 : ∀ a, (![0, 0] : Fin 2 → Nat) a + S14848x256.size a ≤ S14848x256.size a
  h_S14848x256 : 0 < S14848x256.numel
  inb_S256x256_S256x256_0_0 : ∀ a, (![0, 0] : Fin 2 → Nat) a + S256x256.size a ≤ S256x256.size a
  h_S256x256 : 0 < S256x256.numel
  dot_S14848x256_S256x256_S14848x256_1_1_0_0_n_n_wf : DotDims.WF S14848x256 S256x256 S14848x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S14848x256.size a < S50000x256.size a
  hwx0_0 : ∀ i : grid0.Coords, EltTy.bits .f32 = 32 ∨ (Rect.unit (s := S50000x256) (fun a => cc0_transform_0 i a * S14848x256.size a) (fun a => (Pipeline.Clip.of (cc0_transform_0 i a) (S14848x256.size a) (S50000x256.size a)).extent (S14848x256.size a)) fun a => Pipeline.Clip.inb (Pipeline.Clip.ok_of (hstart0_0 i a))).WholeWords (EltTy.packing .f32)
  hwxs0_0 : ∀ i : grid0.Coords, EltTy.bits .f32 = 32 ∨ (Rect.unit (s := S14848x256) (fun _ => 0) (fun a => (Pipeline.Clip.of (cc0_transform_0 i a) (S14848x256.size a) (S50000x256.size a)).extent (S14848x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S14848x256.size a < S50000x256.size a
  hwx0_2 : ∀ i : grid0.Coords, EltTy.bits .f32 = 32 ∨ (Rect.unit (s := S50000x256) (fun a => cc0_transform_2 i a * S14848x256.size a) (fun a => (Pipeline.Clip.of (cc0_transform_2 i a) (S14848x256.size a) (S50000x256.size a)).extent (S14848x256.size a)) fun a => Pipeline.Clip.inb (Pipeline.Clip.ok_of (hstart0_2 i a))).WholeWords (EltTy.packing .f32)
  hwxs0_2 : ∀ i : grid0.Coords, EltTy.bits .f32 = 32 ∨ (Rect.unit (s := S14848x256) (fun _ => 0) (fun a => (Pipeline.Clip.of (cc0_transform_2 i a) (S14848x256.size a) (S50000x256.size a)).extent (S14848x256.size a)) fun a => (Nat.zero_add _).trans_le (Pipeline.Clip.extent_le (Pipeline.Clip.ok_of (hstart0_2 i a)))).WholeWords (EltTy.packing .f32)

variable [Facts₀]

def dot_S14848x256_S256x256_S14848x256_1_1_0_0_n_n : DotDims S14848x256 S256x256 S14848x256 where
  lhsContracting := [1]
  rhsContracting := [1]
  lhsNonContracting := [0]
  rhsNonContracting := [0]
  lhsBatch := []
  rhsBatch := []
  wf := dot_S14848x256_S256x256_S14848x256_1_1_0_0_n_n_wf

abbrev win0_0 : Pipeline.Window sig grid0 :=
  Pipeline.Window.ofSpecClip (Memref.whole main_arg0) S14848x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S14848x256.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256x256, .f32⟩
  | .hbm, ⟨3, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S256x256_S256x256_1_0 : S256x256.Transposes [1, 0] S256x256
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelBody.lean ====
/-
  One grid point of the row-blocked linear layer. The body reads the whole staged block of rows `x`
  (14848 × 256) and the whole staged weight matrix `w` (256 × 256), forms the product that contracts
  the two 256-long feature axes, `(x, w) ↦ x · wᵀ`, and overwrites the whole staged result block with
  it (the result block is also read once, and that value is not used). So, whatever the three staging
  buffers hold when the body starts, it ends with the two inputs' buffers as they were and the result's
  buffer holding the product of what the inputs' buffers held. Nothing is asked of the contents: the
  statement holds for every float instance.
-/
import proofs.«143080_g738734375753_cont_9to1_m_264_10_alg».proof.Proof.Gen.Kernel.Frame
import proofs.«143080_g738734375753_cont_9to1_m_264_10_alg».proof.Proof.Gen.Kernel.Skeleton
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The zero offsets of a whole-buffer access. -/
theorem off_zero : (![0, 0] : Fin 2 → Nat) = fun _ => 0 := funext fun a => by fin_cases a <;> rfl

/-- The body on any three whole staging buffers holding `x0`, `x1`, `x2`: it runs to the end and leaves
    `x0` and `x1` in place and the product `x0 · x1ᵀ` (the payload of its one store) in the third. -/
theorem body_triple (c : Dev nD) (E : Set ℕ) (i : grid0.Coords)
    (a1 : Memref sig .tc .vmem S14848x256 .f32) (h1 : a1.IsWhole) (a2 : Memref sig .tc .vmem S256x256 .f32) (h2 : a2.IsWhole)
    (a3 : Memref sig .tc .vmem S14848x256 .f32) (h3 : a3.IsWhole)
    (x0 : Vec F S14848x256 .f32) (x1 : Vec F S256x256 .f32) (x2 : Vec F S14848x256 .f32) (K : PUnit → sProp 𝕄) :
    iprop(owns (c : Thread nD τ) a1 fullShare x0 ∗ owns (c : Thread nD τ) a2 fullShare x1 ∗ owns (c : Thread nD τ) a3 fullShare x2
        ∗ (iprop(owns (c : Thread nD τ) a1 fullShare x0 ∗ owns (c : Thread nD τ) a2 fullShare x1
            ∗ owns (c : Thread nD τ) a3 fullShare (k0_pay1 x0 x1)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f0, %hf0, H0⟩, ⟨%f1, %hf1, H1⟩, ⟨%f2, %hf2, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer, so the buffer reads back the stored product; each whole-buffer load
  -- read the buffer's contents
  rw [View.read_writes_eq_canon _ _ _ (fun y => View.cover_of_tiled [⟨_, _⟩] S14848x256.size (by rfl) y)]
  rw [View.canon_unit_zero off_zero]
  simp only [View.readAt_eq_ld, View.ld_unit_zero (S := S14848x256) off_zero, View.ld_unit_zero (S := S256x256) off_zero]

end Cert.Kernel.Hand

end
-- ==== Proof.KernelFrame.lean ====
/-
  The kernel as printed (floats as bit patterns) runs to the end, faults nowhere and leaves `x` and `w` as
  they were. The body only loads whole staging buffers and stores a whole staging buffer: no access, branch
  or trip count depends on a value, so the run needs nothing of what the buffers hold — in particular
  nothing of the rows the clipped last fetch leaves past the array's end, nor of what the matrix unit makes
  of them. The proof data therefore relates what the body finds in a buffer to what it leaves there by the
  relation that always holds; the two argument arrays are inputs of the pipeline, which never writes an
  input, so they end as launched.
-/
import proofs.«143080_g738734375753_cont_9to1_m_264_10_alg».proof.Proof.KernelBody
import proofs.«143080_g738734375753_cont_9to1_m_264_10_alg».proof.Proof.Gen.Kernel.Launch
import proofs.«143080_g738734375753_cont_9to1_m_264_10_alg».proof.Proof.Gen.Kernel.Points
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as launched; of what the body leaves in a staging buffer, nothing is said; the invariant is
    the region's own; full shares, nothing owed. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point, whatever the three current staging buffers hold, the body runs and hands each back
    holding something. -/
theorem body_obligation (c : Dev nD) : (rdats (F := F) m c).BodyObligation (defs₀ (F := F)) Variants.none () Set.univ := fun t Y _ => by
  rw [bigSep_W0, bigSep_W0]
  rw [show (rdats m c).Φ t.succ = (rdats m c).Φ t.castSucc from rfl,
    show (rdats m c).owesAt () t.succ = (rdats m c).owesAt () t.castSucc from rfl]
  iintro ⟨HΦ, Ho, H0, H1, H2⟩
  iapply (body_triple (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (Y 0) (Y 1) (Y 2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  · iexists k0_pay1 (Y 0) (Y 1); isplitr; · ipureintro; trivial
    iexact H2

set_option backward.isDefEq.respectTransparency.types false in
/-- From any memory with zero counters every weakly fair execution of @main terminates without a fault, each
    array of the pipeline ending at contents the relation allows: an input at its launch contents. -/
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame: `x` and `w` end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Pipeline.RDat.FramePost.arr_in h c (0 : Fin 3) rfl).trans (V_main_arg0 m c),
     (Pipeline.RDat.FramePost.arr_in h c (1 : Fin 3) rfl).trans (V_main_arg1 m c)⟩) (run_main m ρ)

end Cert.Kernel.Hand

end
-- ==== Proof.KernelIdealBody.lean ====
/-
  One grid point of the row-blocked linear layer. The body reads the whole staged block of rows `x`
  (14848 × 256) and the whole staged weight matrix `w` (256 × 256), forms the product that contracts
  the two 256-long feature axes, `(x, w) ↦ x · wᵀ`, and overwrites the whole staged result block with
  it (the result block is also read once, and that value is not used). So, whatever the three staging
  buffers hold when the body starts, it ends with the two inputs' buffers as they were and the result's
  buffer holding the product of what the inputs' buffers held. Nothing is asked of the contents: the
  statement holds for every float instance.
-/
import proofs.«143080_g738734375753_cont_9to1_m_264_10_alg».proof.Proof.Gen.KernelIdeal.Frame
import proofs.«143080_g738734375753_cont_9to1_m_264_10_alg».proof.Proof.Gen.KernelIdeal.Skeleton
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The zero offsets of a whole-buffer access. -/
theorem off_zero : (![0, 0] : Fin 2 → Nat) = fun _ => 0 := funext fun a => by fin_cases a <;> rfl

/-- The body on any three whole staging buffers holding `x0`, `x1`, `x2`: it runs to the end and leaves
    `x0` and `x1` in place and the product `x0 · x1ᵀ` (the payload of its one store) in the third. -/
theorem body_triple (c : Dev nD) (E : Set ℕ) (i : grid0.Coords)
    (a1 : Memref sig .tc .vmem S14848x256 .f32) (h1 : a1.IsWhole) (a2 : Memref sig .tc .vmem S256x256 .f32) (h2 : a2.IsWhole)
    (a3 : Memref sig .tc .vmem S14848x256 .f32) (h3 : a3.IsWhole)
    (x0 : Vec F S14848x256 .f32) (x1 : Vec F S256x256 .f32) (x2 : Vec F S14848x256 .f32) (K : PUnit → sProp 𝕄) :
    iprop(owns (c : Thread nD τ) a1 fullShare x0 ∗ owns (c : Thread nD τ) a2 fullShare x1 ∗ owns (c : Thread nD τ) a3 fullShare x2
        ∗ (iprop(owns (c : Thread nD τ) a1 fullShare x0 ∗ owns (c : Thread nD τ) a2 fullShare x1
            ∗ owns (c : Thread nD τ) a3 fullShare (k0_pay1 x0 x1)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f0, %hf0, H0⟩, ⟨%f1, %hf1, H1⟩, ⟨%f2, %hf2, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer, so the buffer reads back the stored product; each whole-buffer load
  -- read the buffer's contents
  rw [View.read_writes_eq_canon _ _ _ (fun y => View.cover_of_tiled [⟨_, _⟩] S14848x256.size (by rfl) y)]
  rw [View.canon_unit_zero off_zero]
  simp only [View.readAt_eq_ld, View.ld_unit_zero (S := S14848x256) off_zero, View.ld_unit_zero (S := S256x256) off_zero]

end Cert.KernelIdeal.Hand

end
-- ==== Proof.KernelIdealPay.lean ====
/-
  The body's product, read at an index, over the extended reals. The payload of the body's one store is
  the matrix unit's product of the staged rows `a` (14848 × 256) with the staged weights `w` (256 × 256),
  contracting the second axis of both, added into a zero accumulator. At the ideal instance that is, entry
  by entry, the plain sum `(p, q) ↦ Σ_k a[p, k] · w[q, k]`: row `p` of the result reads row `p` of `a` and
  no other. That last fact is what lets the clipped last block be certified: the rows of the staging
  buffer past the array's end hold values nothing names, and they reach only result rows past the end.
-/
import proofs.«143080_g738734375753_cont_9to1_m_264_10_alg».proof.Proof.Gen.KernelIdeal.Skeleton
import Idealize.ShloMosaic.Lib.ValueIdx
import Idealize.ShloMosaic.PureOps.Ideal.Laws

noncomputable section

namespace Cert.KernelIdeal.Hand

open Cert.KernelIdeal Cert.KernelIdeal.Gen Idealize.ShloMosaic

/-- Entry `(p, k)` of a block of rows. -/
abbrev rowAt (p : Fin 14848) (k : Fin 256) : S14848x256.Idx := fun a => match a with
  | ⟨0, _⟩ => ⟨p.val, p.isLt⟩
  | ⟨1, _⟩ => ⟨k.val, k.isLt⟩
/-- Entry `(q, k)` of the weights. -/
abbrev wAt (q : Fin 256) (k : Fin 256) : S256x256.Idx := fun a => match a with
  | ⟨0, _⟩ => ⟨q.val, q.isLt⟩
  | ⟨1, _⟩ => ⟨k.val, k.isLt⟩

/-- The product's left operand is read in the result's row, -/
theorem lhs_row (j : S14848x256.Idx) (q : dot_S14848x256_S256x256_S14848x256_1_1_0_0_n_n.contr.Idx) :
    (dot_S14848x256_S256x256_S14848x256_1_1_0_0_n_n.lhsIdx j q 0).val = (j 0).val := by
  unfold DotDims.lhsIdx
  rw [dif_neg (show ¬(0 : Fin S14848x256.rank) ∈ dot_S14848x256_S256x256_S14848x256_1_1_0_0_n_n.lhsBatch by decide), dif_pos (show (0 : Fin S14848x256.rank) ∈ dot_S14848x256_S256x256_S14848x256_1_1_0_0_n_n.lhsNonContracting by decide)]
  rfl
/-- at the contracted position; -/
theorem lhs_col (j : S14848x256.Idx) (q : dot_S14848x256_S256x256_S14848x256_1_1_0_0_n_n.contr.Idx) :
    (dot_S14848x256_S256x256_S14848x256_1_1_0_0_n_n.lhsIdx j q 1).val = (q ⟨0, by decide⟩).val :=
  dot_S14848x256_S256x256_S14848x256_1_1_0_0_n_n.lhsIdx_val_of_single rfl j q
/-- the right operand in the row the result's column names, -/
theorem rhs_row (j : S14848x256.Idx) (q : dot_S14848x256_S256x256_S14848x256_1_1_0_0_n_n.contr.Idx) :
    (dot_S14848x256_S256x256_S14848x256_1_1_0_0_n_n.rhsIdx j q 0).val = (j 1).val := by
  unfold DotDims.rhsIdx
  rw [dif_neg (show ¬(0 : Fin S256x256.rank) ∈ dot_S14848x256_S256x256_S14848x256_1_1_0_0_n_n.rhsBatch by decide), dif_pos (show (0 : Fin S256x256.rank) ∈ dot_S14848x256_S256x256_S14848x256_1_1_0_0_n_n.rhsNonContracting by decide)]
  rfl
/-- at the contracted position. -/
theorem rhs_col (j : S14848x256.Idx) (q : dot_S14848x256_S256x256_S14848x256_1_1_0_0_n_n.contr.Idx) :
    (dot_S14848x256_S256x256_S14848x256_1_1_0_0_n_n.rhsIdx j q 1).val = (q ⟨0, by decide⟩).val :=
  dot_S14848x256_S256x256_S14848x256_1_1_0_0_n_n.rhsIdx_val_of_single rfl j q

/-- The stored product at entry `j = (p, q)` is `Σ_k a[p, k] · w[q, k]`. -/
theorem pay_apply (a : Vec Ideal S14848x256 .f32) (w : Vec Ideal S256x256 .f32) (j : S14848x256.Idx) :
    k0_pay1 (F := Ideal) a w j = ∑ k : Fin 256, a (rowAt (j 0) k) * w (wAt (j 1) k) := by
  unfold k0_pay1
  show matmul dot_S14848x256_S256x256_S14848x256_1_1_0_0_n_n none a w (constant (F := Ideal) S14848x256 .f32 0x00000000#32) j = _
  simp only [matmul]
  rw [Ideal.matmul_constant_zero_apply, ← Equiv.sum_comp (ValueIdx.contrEquiv1 dot_S14848x256_S256x256_S14848x256_1_1_0_0_n_n 256 rfl rfl).symm]
  refine Finset.sum_congr rfl fun k _ => ?_
  have hk := ValueIdx.contrEquiv1_symm_val dot_S14848x256_S256x256_S14848x256_1_1_0_0_n_n 256 rfl rfl k
  have el : dot_S14848x256_S256x256_S14848x256_1_1_0_0_n_n.lhsIdx j ((ValueIdx.contrEquiv1 dot_S14848x256_S256x256_S14848x256_1_1_0_0_n_n 256 rfl rfl).symm k) = rowAt (j 0) k := funext fun b => Fin.ext (by
    match b with
    | ⟨0, _⟩ => exact lhs_row _ _
    | ⟨1, _⟩ => exact (lhs_col _ _).trans hk)
  have er : dot_S14848x256_S256x256_S14848x256_1_1_0_0_n_n.rhsIdx j ((ValueIdx.contrEquiv1 dot_S14848x256_S256x256_S14848x256_1_1_0_0_n_n 256 rfl rfl).symm k) = wAt (j 1) k := funext fun b => Fin.ext (by
    match b with
    | ⟨0, _⟩ => exact rhs_row _ _
    | ⟨1, _⟩ => exact (rhs_col _ _).trans hk)
  rw [el, er]

/-- Two blocks of rows that agree on row `j 0` give the same product at entry `j`. -/
theorem pay_congr_row (a a' : Vec Ideal S14848x256 .f32) (w : Vec Ideal S256x256 .f32) (j : S14848x256.Idx)
    (h : ∀ k : Fin 256, a (rowAt (j 0) k) = a' (rowAt (j 0) k)) :
    k0_pay1 (F := Ideal) a w j = k0_pay1 (F := Ideal) a' w j := by
  rw [pay_apply, pay_apply]
  exact Finset.sum_congr rfl fun k _ => by rw [h k]

end Cert.KernelIdeal.Hand

end
-- ==== Proof.KernelIdealRun.lean ====
/-
  The idealized kernel's run. The grid has four points; point `t` stages rows `14848·t …` of `x`, the whole
  of `w`, and a result block of the same rows. 50000 = 3·14848 + 5456, so the fourth block overhangs the
  array: its fetch lands the 5456 rows that exist and leaves the other rows of the staging buffer at values
  nothing names, and its write-back writes only those 5456 rows of the result.
  The proof data says what each staging buffer holds after the body: `x`'s buffer its block (stated on the
  rows inside the array: the filler past them is the proof's choice, zero, and nothing reads it), `w`'s
  buffer the weights, the result's buffer the product of the two. The product's row `p` reads only row `p`
  of the staged `x` block, so on the rows inside the array the product does not depend on what the fetch
  left past the array's end — which is all the obligation of a clipped window asks.
-/
import proofs.«143080_g738734375753_cont_9to1_m_264_10_alg».proof.Proof.KernelIdealBody
import proofs.«143080_g738734375753_cont_9to1_m_264_10_alg».proof.Proof.KernelIdealPay
import proofs.«143080_g738734375753_cont_9to1_m_264_10_alg».proof.Proof.Gen.KernelIdeal.Launch
import proofs.«143080_g738734375753_cont_9to1_m_264_10_alg».proof.Proof.Gen.KernelIdeal.Points
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The rows of `x` at point `t` as a whole staging block: the rows inside the array, and zero on the rows
    past the array's end (only the last block has any). -/
def xfill (c : Dev nD) (t : Fin cfg0.N) : Vec Ideal S14848x256 .f32 :=
  win0_0.fill (grid0.coords t) (fun _ => Scalar.ofBits (F := Ideal) .f32 0#32) (iblk m c 0 t)

/-- After the body at point `t`: `x`'s buffer at its block, `w`'s at the weights, the result's at their product.
    The arrays as launched; the invariant is the region's own (the body keeps nothing between points). -/
def dats (_ : Fin 1) (c : Dev nD) : Dat τ (Elt Ideal) Unit ℕ (UR sig nD τ) ℕ cfg0 c where
  A w := V m c (Pipeline.arrRef spec0 w)
  after w t := match w with
    | ⟨0, _⟩ => xfill m c t
    | ⟨1, _⟩ => iblk m c 1 t
    | ⟨2, _⟩ => k0_pay1 (xfill m c t) (iblk m c 1 t)
  Φ _ := Pipeline.ΦA spec0 c
  q _ := fullShare
  owed _ := 0

/-- `x`'s buffer is fetched at every point: the block on the rows inside the array, anything (`d`) past them. -/
theorem before_x (c : Dev nD) (t : Fin cfg0.N) (d) :
    (dats m 0 c).before (0 : Fin 3) t d = win0_0.fill (grid0.coords t) d (iblk m c 0 t) := by
  rw [Dat.before_fetched _ _ _ (fetch0_0 t)]; rfl
/-- `w`'s buffer holds the weights at every point, fetched there (the first) or not. -/
theorem before_w (c : Dev nD) (t : Fin cfg0.N) (d) : (dats m 0 c).before (1 : Fin 3) t d = iblk m c 1 t :=
  before0_1_of m (dats m 0 c) rfl (fun _ => rfl) t d
/-- The result's buffer is written back at every point, so the body finds it at contents nothing names. -/
theorem before_out (c : Dev nD) (t : Fin cfg0.N) (d) : (dats m 0 c).before (2 : Fin 3) t d = d := by
  refine (dats m 0 c).before_out_reset (2 : Fin 3) rfl t ?_ d
  by_cases h : t.val = 0
  · exact .inl h
  · exact .inr ⟨h, flush0_2 _⟩

/-! ## Rows inside the array -/

/-- The result's window is cut where `x`'s is, and neither is cut along the features. -/
theorem cut_sizes : ∀ t : Fin cfg0.N, win0_2.xsize (grid0.coords t) 0 = win0_0.xsize (grid0.coords t) 0
    ∧ win0_0.xsize (grid0.coords t) 1 = 256 :=
  (by decide +kernel : ∀ t : Fin grid0.N, win0_2.xsize (grid0.coords t) 0 = win0_0.xsize (grid0.coords t) 0
    ∧ win0_0.xsize (grid0.coords t) 1 = 256)

/-- Entry `(p, k)` of `x`'s staging buffer, for `p` a result row inside the array, is one the fetch filled. -/
theorem moved_row (t : Fin cfg0.N) (j : (win0_2.xblock (grid0.coords t)).Idx) (k : Fin 256) :
    win0_0.moved (grid0.coords t) (rowAt (win0_2.xinj (grid0.coords t) j 0) k) = true :=
  (win0_0.moved_iff _ _).mpr fun a => by
    match a with
    | ⟨0, _⟩ => exact (cut_sizes t).1 ▸ (j 0).isLt
    | ⟨1, _⟩ => exact (cut_sizes t).2 ▸ k.isLt

/-- On the result rows inside the array the product does not see what fills `x`'s buffer past the array's end. -/
theorem cut_pay_fill (t : Fin cfg0.N) (d d' : Vec Ideal S14848x256 .f32)
    (g : (win0_0.xblock (grid0.coords t)).Idx → Elt Ideal .f32) (w : Vec Ideal S256x256 .f32) :
    win0_2.cut (grid0.coords t) (k0_pay1 (F := Ideal) (win0_0.fill (grid0.coords t) d g) w)
      = win0_2.cut (grid0.coords t) (k0_pay1 (F := Ideal) (win0_0.fill (grid0.coords t) d' g) w) := by
  funext j
  refine pay_congr_row _ _ w (win0_2.xinj (grid0.coords t) j) fun k => ?_
  unfold Window.fill
  rw [dif_pos (moved_row t j k), dif_pos (moved_row t j k)]

/-! ## The body's obligation -/

theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_x m c t d0, before_w m c t d1, before_out m c t d2]
  iapply (body_triple (F := Ideal) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (iblk m c 0 t)) (iblk m c 1 t) d2 _)
  isplitl [H0]; · iexact H0
  isplitl [H1]; · iexact H1
  isplitl [H2]; · iexact H2
  iintro ⟨H0, H1, H2⟩
  isplitl [HΦ]; · iexact HΦ
  isplitl [Ho]; · iexact Ho
  -- on the rows inside the array: `x`'s buffer still holds its block, and the product is the product of the
  -- zero-filled block (what fills the rows past the end is not seen there)
  have hx : win0_0.cut (grid0.coords t) (xfill m c t) = iblk m c 0 t := win0_0.cut_fill _ _ _
  have hp : win0_2.fill (α := Elt Ideal .f32) (grid0.coords t) (k0_pay1 (F := Ideal) (win0_0.fill (grid0.coords t) d0 (iblk m c 0 t)) (iblk m c 1 t))
      (win0_2.cut (α := Elt Ideal .f32) (grid0.coords t) (k0_pay1 (F := Ideal) (xfill m c t) (iblk m c 1 t)))
      = k0_pay1 (F := Ideal) (win0_0.fill (grid0.coords t) d0 (iblk m c 0 t)) (iblk m c 1 t) := by
    unfold xfill; exact win0_2.fill_congr_cut _ (cut_pay_fill t _ _ _ _)
  isplitl [H0]
  · iexists d0
    change _ ⊢ owns (c : Thread nD τ) (stage0_0 (cfg0.slots t 0)) fullShare
      (win0_0.fill (grid0.coords t) d0 (win0_0.cut (grid0.coords t) (xfill m c t)))
    rw [hx]
  isplitl [H1]
  · change _ ⊢ owns (c : Thread nD τ) (stage0_1 (cfg0.slots t 1)) fullShare (iblk m c 1 t)
    exact .rfl
  · iexists k0_pay1 (F := Ideal) (win0_0.fill (grid0.coords t) d0 (iblk m c 0 t)) (iblk m c 1 t)
    change _ ⊢ owns (c : Thread nD τ) (stage0_2 (cfg0.slots t 2)) fullShare
      (win0_2.fill (α := Elt Ideal .f32) (grid0.coords t) (k0_pay1 (F := Ideal) (win0_0.fill (grid0.coords t) d0 (iblk m c 0 t)) (iblk m c 1 t))
        (win0_2.cut (α := Elt Ideal .f32) (grid0.coords t) (k0_pay1 (F := Ideal) (xfill m c t) (iblk m c 1 t))))
    rw [hp]

/-! ## The run and the frame -/

set_option backward.isDefEq.respectTransparency.types false in
/-- From any memory with zero counters every weakly fair execution of @main terminates without a fault; each array
    of the pipeline ends at what the write-backs make of the proof data, every other buffer as launched. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := fun _ _ => rfl) (hΦ := fun _ _ => rfl)

/-- The frame: `x` and `w` end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (fun _ _ => rfl) (run_main m ρ)

end Cert.KernelIdeal.Hand

end
-- ==== Proof.LinearSpec.lean ====
/-
  What both programs compute: the bias-free linear layer `out = x · wᵀ` of `x` (50000 × 256) and
  `w` (256 × 256) over the extended reals, entry by entry
      out[r, q] = Σ_k x[r, k] · w[q, k]      (k over the 256 features),
  the sum taken in the one order both programs take it in, so no law of the extended reals beyond
  the definition is needed and the inputs' finiteness is never used.
-/
import Idealize.ShloMosaic.PureOps.Ideal
import Idealize.ShloMosaic.Lib.ValueIdx

noncomputable section

namespace Cert.LinearSpec

open Idealize.ShloMosaic

/-- The shape of `x` and of the result, and of the weights. -/
abbrev SX : Shape := ⟨2, ![50000, 256]⟩
abbrev SW : Shape := ⟨2, ![256, 256]⟩

/-- Entry `(r, k)` of `x`. -/
abbrev xAt (r : Fin 50000) (k : Fin 256) : SX.Idx := fun a => match a with
  | ⟨0, _⟩ => ⟨r.val, r.isLt⟩
  | ⟨1, _⟩ => ⟨k.val, k.isLt⟩
/-- Entry `(q, k)` of `w`. -/
abbrev wAt (q : Fin 256) (k : Fin 256) : SW.Idx := fun a => match a with
  | ⟨0, _⟩ => ⟨q.val, q.isLt⟩
  | ⟨1, _⟩ => ⟨k.val, k.isLt⟩

/-- `x · wᵀ`, entry by entry. -/
def linear (x : Vec Ideal SX .f32) (w : Vec Ideal SW .f32) : Vec Ideal SX .f32 :=
  fun i => ∑ k : Fin 256, x (xAt (i 0) k) * w (wAt (i 1) k)

end Cert.LinearSpec

end
-- ==== Proof.KernelIdealValue.lean ====
/-
  What the result array holds after the idealized kernel's run: `x · wᵀ`. Point `t` writes back, on the rows
  of its block that lie inside the array, the product of `x`'s rows there with the weights; entry `(p, q)` of
  that block is `Σ_k x[14848·t + p, k] · w[q, k]`, which is entry `(14848·t + p, q)` of `x · wᵀ`. The four
  blocks' rows inside the array are 0‥14847, 14848‥29695, 29696‥44543 and 44544‥49999: together all 50000, so
  every entry of the result is written, with the linear layer's value.
-/
import proofs.«143080_g738734375753_cont_9to1_m_264_10_alg».proof.Proof.KernelIdealRun
import proofs.«143080_g738734375753_cont_9to1_m_264_10_alg».proof.Proof.LinearSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable (m : (ℓ : Loc nD τ sig) → Buf (Elt Ideal) ℓ) (ρ : Dev nD → PrngReg)

/-- The two argument arrays as launched. -/
abbrev xarr (c : Dev nD) : Vec Ideal S50000x256 .f32 := m ((c.tc : Thread nD τ).loc main_arg0)
abbrev warr (c : Dev nD) : Vec Ideal S256x256 .f32 := m ((c.tc : Thread nD τ).loc main_arg1)

/-- Block `t` of `x` and block `t` of the result start at the same row and at feature 0; the weights' one block
    starts at the origin. -/
theorem block_starts : ∀ t : Fin cfg0.N, win0_0.index t 0 = win0_2.index t 0 ∧ win0_0.index t 1 = 0
    ∧ win0_2.index t 1 = 0 ∧ win0_1.index t 0 = 0 ∧ win0_1.index t 1 = 0 :=
  (by decide +kernel : ∀ t : Fin grid0.N, win0_0.index t 0 = win0_2.index t 0 ∧ win0_0.index t 1 = 0
    ∧ win0_2.index t 1 = 0 ∧ win0_1.index t 0 = 0 ∧ win0_1.index t 1 = 0)

/-! ## What a point writes back -/

/-- Point `t` writes back block `t` of `x · wᵀ`: on the rows of the block inside the array, entry `(p, q)` of the
    staged product is `Σ_k x[14848·t + p, k] · w[q, k]`. -/
theorem flushed_eq (c : Dev nD) (t : Fin cfg0.N) :
    (dats m 0 c).flushed (2 : Fin 3) t
      = ((cfg0.win 2).blk t).view.read (Elt Ideal) (LinearSpec.linear (xarr m c) (warr m c)) := by
  funext j
  show k0_pay1 (F := Ideal) (xfill m c t) (iblk m c 1 t) (win0_2.xinj (grid0.coords t) j)
    = LinearSpec.linear (xarr m c) (warr m c) ((win0_2.blk t).view.emb j)
  rw [pay_apply]
  unfold LinearSpec.linear
  refine Finset.sum_congr rfl fun k _ => ?_
  obtain ⟨e0, e1, e2, e3, e4⟩ := block_starts t
  -- the staged row is the array's row, read where the block starts
  have hx : xfill m c t (rowAt (win0_2.xinj (grid0.coords t) j 0) k)
      = xarr m c (LinearSpec.xAt ((win0_2.blk t).view.emb j 0) k) := by
    unfold xfill Window.fill
    rw [dif_pos (moved_row t j k)]
    show V m c main_arg0 (((cfg0.win 0).blk t).view.emb _) = V m c main_arg0 _
    refine congrArg _ (funext fun a => Fin.ext ?_)
    match a with
    | ⟨0, _⟩ => show win0_0.index t (0 : Fin 2) * 14848 + 1 * (j 0).val = win0_2.index t (0 : Fin 2) * 14848 + 1 * (j 0).val; rw [e0]
    | ⟨1, _⟩ => show win0_0.index t (1 : Fin 2) * 256 + 1 * k.val = k.val; rw [e1]; omega
  -- the staged weights are the weights
  have hw : iblk m c 1 t (wAt (win0_2.xinj (grid0.coords t) j 1) k)
      = warr m c (LinearSpec.wAt ((win0_2.blk t).view.emb j 1) k) := by
    show V m c main_arg1 (((cfg0.win 1).blk t).view.emb _) = V m c main_arg1 _
    refine congrArg _ (funext fun a => Fin.ext ?_)
    match a with
    | ⟨0, _⟩ => show win0_1.index t (0 : Fin 2) * 256 + 1 * (j 1).val = win0_2.index t (1 : Fin 2) * 256 + 1 * (j 1).val; rw [e3, e2]
    | ⟨1, _⟩ => show win0_1.index t (1 : Fin 2) * 256 + 1 * k.val = k.val; rw [e4]; omega
  rw [hx, hw]

/-! ## The four blocks cover the result -/

/-- Where point `t`'s result block lies: it starts at row `14848·t`, feature 0, spans all 256 features, and
    14848 rows — the last one the 5456 that are left. -/
theorem block_extent : ∀ t : Fin cfg0.N, win0_2.index t 0 = t.val ∧ win0_2.index t 1 = 0
    ∧ win0_2.xsize (grid0.coords t) 0 = (if t.val = 3 then 5456 else 14848) ∧ win0_2.xsize (grid0.coords t) 1 = 256 :=
  (by decide +kernel : ∀ t : Fin grid0.N, win0_2.index t 0 = t.val ∧ win0_2.index t 1 = 0
    ∧ win0_2.xsize (grid0.coords t) 0 = (if t.val = 3 then 5456 else 14848) ∧ win0_2.xsize (grid0.coords t) 1 = 256)

/-- An entry of the result is in point `t`'s block iff each coordinate is in the block's range on its axis. -/
theorem mem_blk (t : Fin cfg0.N) (i : S50000x256.Idx) :
    i ∈ ((cfg0.win 2).blk t).view.set ↔ ∀ a : Fin 2, win0_2.index t a * S14848x256.size a ≤ (i a).val
      ∧ (i a).val < win0_2.index t a * S14848x256.size a + win0_2.xsize (grid0.coords t) a := by
  show i ∈ ((View.whole main_v0).slice (win0_2.rect t)).set ↔ _
  rw [View.set_slice_whole, Rect.mem_set_unit]
  exact Iff.rfl

/-- Row `r` is in the block of point `r / 14848`. -/
theorem covered (i : S50000x256.Idx) :
    ∃ t : Fin cfg0.N, (cfg0.win 2).flush t = true ∧ i ∈ ((cfg0.win 2).blk t).view.set := by
  have hr : (i 0).val < 50000 := (i 0).isLt
  have hq : (i 1).val < 256 := (i 1).isLt
  have hN : cfg0.N = 4 := N_0
  let t : Fin cfg0.N := ⟨(i 0).val / 14848, by omega⟩
  have ht : t.val = (i 0).val / 14848 := rfl
  obtain ⟨b0, b1, b2, b3⟩ := block_extent t
  refine ⟨t, flush0_2 t, (mem_blk t i).mpr fun a => ?_⟩
  match a with
  | ⟨0, _⟩ =>
    show win0_2.index t (0 : Fin 2) * 14848 ≤ (i 0).val ∧ (i 0).val < win0_2.index t (0 : Fin 2) * 14848 + win0_2.xsize (grid0.coords t) (0 : Fin 2)
    rw [b0, b2, ht]
    split <;> omega
  | ⟨1, _⟩ =>
    show win0_2.index t (1 : Fin 2) * 256 ≤ (i 1).val ∧ (i 1).val < win0_2.index t (1 : Fin 2) * 256 + win0_2.xsize (grid0.coords t) (1 : Fin 2)
    rw [b1, b3]
    omega

/-! ## The result array, and the run read at it -/

/-- After the run the result array holds `x · wᵀ`. -/
theorem final_out (c : Dev nD) : (dats m 0 c).arrAt (2 : Fin 3) cfg0.N = LinearSpec.linear (xarr m c) (warr m c) :=
  (dats m 0 c).arrAt_eq_of_cover (2 : Fin 3) _ (fun t _ => flushed_eq m c t) covered

/-- The run: the result at `x · wᵀ`, the two arguments unchanged. -/
theorem run_value : θ_run defs (onTc (τ := τ) (main (F := Ideal))) ⟨m, fun _ => 0, ρ⟩ fun r => ∀ c : Dev nD,
      r.2.mem ((c.tc : Thread nD τ).loc main_v0) = LinearSpec.linear (xarr m c) (warr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 2).trans (final_out m c),
     ((h c).1 0).trans (((dats m 0 c).arrAt_in 0 rfl _).trans (V_main_arg0 m c)),
     ((h c).1 1).trans (((dats m 0 c).arrAt_in 1 rfl _).trans (V_main_arg1 m c))⟩) (run_main m ρ)

end Cert.KernelIdeal.Hand

end
-- ==== Proof.RefSide.lean ====
/-
  The reference is the linear layer. It transposes the weights and then takes the matrix product that
  contracts the features of `x` with the FIRST axis of the transposed weights: entry `(r, q)` is
  `Σ_k x[r, k] · wᵀ[k, q] = Σ_k x[r, k] · w[q, k]`.
-/
import proofs.«143080_g738734375753_cont_9to1_m_264_10_alg».proof.Proof.Gen.ReferenceIdeal.Read
import proofs.«143080_g738734375753_cont_9to1_m_264_10_alg».proof.Proof.LinearSpec

noncomputable section

namespace Cert.ReferenceIdeal.RefValue

open Cert.ReferenceIdeal Cert.ReferenceIdeal.Gen Cert.ReferenceIdeal.Read Idealize.ShloMosaic Cert.LinearSpec

/-- The reference's result, as a function of its two arguments, is `x · wᵀ`. -/
theorem ref_eq_linear (x : Vec Ideal S50000x256 .f32) (w : Vec Ideal S256x256 .f32) :
    val_main_v1 (F := Ideal) x w = linear x w := by
  funext i
  rw [val_main_v1_apply]
  unfold linear
  refine Finset.sum_congr rfl fun k _ => ?_
  rw [val_main_v0_apply]
  have e1 : lidx_main_v1 i k = xAt (i 0) k := funext fun a => Fin.ext (by
    match a with
    | ⟨0, _⟩ => rfl
    | ⟨1, _⟩ => rfl)
  have e2 : idx_main_v0 (ridx_main_v1 i k) = wAt (i 1) k := funext fun a => Fin.ext (by
    match a with
    | ⟨0, _⟩ => rfl
    | ⟨1, _⟩ => rfl)
  rw [e1, e2]

end Cert.ReferenceIdeal.RefValue

end
-- ==== Proof.lean ====
/-
  The certificate of a row-blocked linear layer against `x @ W.T`.

  The kernel multiplies `x` (50000 × 256) by the transposed weights `w` (256 × 256) in four blocks of 14848
  rows, the last block holding the 5456 rows that are left; each block is the matrix unit's product
  contracting the 256 features of both operands, into a zero accumulator. The reference transposes `w` and
  takes one product over all rows. Over the extended reals both are, entry by entry,
      out[r, q] = Σ_k x[r, k] · w[q, k],
  the 256 terms in the same order on both sides, so the two results are equal by unfolding the two products
  and matching indices: no algebraic law is used and the inputs' finiteness is not needed.

  The one thing to watch is the clipped last block. Its fetch leaves the staging rows past the array's end
  at values nothing names. Row `p` of a product reads only row `p` of the left operand, so those values reach
  only result rows past the array's end, and the clipped write-back drops exactly those.

  * The printed kernel's frame (floats as bit patterns): the body's accesses are whole-buffer loads and a
    whole-buffer store, none depending on a value; the run is certified without naming any staged contents
    (Proof/KernelBody, Proof/KernelFrame).
  * The idealized kernel: the run with every staged block named on the rows inside the array
    (Proof/KernelIdealBody, Proof/KernelIdealPay, Proof/KernelIdealRun), and the result array read as
    `x · wᵀ` from the four write-backs, which cover it (Proof/KernelIdealValue).
  * The reference: its run and its two operations read at an index are generated modules; that they make
    `x · wᵀ` is Proof/RefSide.
  * The idealization rewrote nothing, so that conjunct is `True`.
-/
import proofs.«143080_g738734375753_cont_9to1_m_264_10_alg».proof.Defs
import proofs.«143080_g738734375753_cont_9to1_m_264_10_alg».proof.Proof.Gen.Kernel
import proofs.«143080_g738734375753_cont_9to1_m_264_10_alg».proof.Proof.Gen.KernelIdeal
import proofs.«143080_g738734375753_cont_9to1_m_264_10_alg».proof.Proof.Gen.ReferenceIdeal
import proofs.«143080_g738734375753_cont_9to1_m_264_10_alg».proof.Proof.Gen.Pre_finite_inputs
import proofs.«143080_g738734375753_cont_9to1_m_264_10_alg».proof.Proof.KernelFrame
import proofs.«143080_g738734375753_cont_9to1_m_264_10_alg».proof.Proof.KernelIdealValue
import proofs.«143080_g738734375753_cont_9to1_m_264_10_alg».proof.Proof.RefSide
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.Hand.frame m ρ

/-- So does the idealized kernel. -/
theorem frame_kernel_ideal : Cert.frame_KernelIdeal := fun m ρ _ => Cert.KernelIdeal.Hand.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `w`, both idealized programs end with `x · wᵀ` in their result. -/
theorem algebraic : Cert.algebraic_KernelIdeal_ReferenceIdeal := by
  intro m ρ m' ρ' _ hagree
  refine ⟨fun c => Cert.LinearSpec.linear (Cert.KernelIdeal.Hand.xarr m c) (Cert.KernelIdeal.Hand.warr m c),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq_linear, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
